-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S1x1024 : Shape := ⟨2, ![1, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x2048x1024, .f32⟩
  | .local _ .vmem, ⟨7, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S1x2048x1024 : S2048x1024.ShapeCasts S1x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .f32 = 32 ∨ (Rect.block (s := S8192x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x8192x1024.size a
  hwx0_4 : ∀ i : grid0.Coords, EltTy.bits .f32 = 32 ∨ (Rect.block (s := S4x8192x1024) S1x2048x1024.size (cc0_transform_4 i) (hinb0_4 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S1x8192 : Shape := ⟨2, ![1, 8192]⟩
abbrev S1x1x1x8192 : Shape := ⟨4, ![1, 1, 1, 8192]⟩
abbrev S4x1x1x8192 : Shape := ⟨4, ![4, 1, 1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S1x8192, .i32⟩
  | .hbm, ⟨6, _⟩ => ⟨S1x1x1x8192, .i32⟩
  | .hbm, ⟨7, _⟩ => ⟨S4x1x1x8192, .i32⟩
  | .hbm, ⟨8, _⟩ => ⟨S4x8192, .i32⟩
  | .hbm, ⟨9, _⟩ => ⟨S_, .i32⟩
  | .hbm, ⟨10, _⟩ => ⟨S4x8192, .i32⟩
  | .hbm, ⟨11, _⟩ => ⟨S4x8192, .i1⟩
  | .hbm, ⟨12, _⟩ => ⟨S_, .i32⟩
  | .hbm, ⟨13, _⟩ => ⟨S4x8192, .i32⟩
  | .hbm, ⟨14, _⟩ => ⟨S4x8192, .i32⟩
  | .hbm, ⟨15, _⟩ => ⟨S4x8192, .i32⟩
  | .hbm, ⟨16, _⟩ => ⟨S4x8192x1, .i32⟩
  | .hbm, ⟨17, _⟩ => ⟨S1, .i32⟩
  | .hbm, ⟨18, _⟩ => ⟨S_, .i32⟩
  | .hbm, ⟨19, _⟩ => ⟨S4x8192x1, .i32⟩
  | .hbm, ⟨20, _⟩ => ⟨S4x8192x1, .i1⟩
  | .hbm, ⟨21, _⟩ => ⟨S1x1x1, .i32⟩
  | .hbm, ⟨22, _⟩ => ⟨S4x8192x1, .i32⟩
  | .hbm, ⟨23, _⟩ => ⟨S4x8192x1, .i1⟩
  | .hbm, ⟨24, _⟩ => ⟨S4x8192x1, .i1⟩
  | .hbm, ⟨25, _⟩ => ⟨S_, .i1⟩
  | .hbm, ⟨26, _⟩ => ⟨S4x8192, .i1⟩
  | .hbm, ⟨27, _⟩ => ⟨S4x8192x1024, .f32⟩
  | .hbm, ⟨28, _⟩ => ⟨S4x8192x1024, .i1⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  shapeCasts_S1x8192_S1x1x1x8192 : S1x8192.ShapeCasts S1x1x1x8192
  bcast_S1x1x1x8192_S4x1x1x8192_0_1_2_3 : S1x1x1x8192.BroadcastsInDim S4x1x1x8192 (![0, 1, 2, 3] : Fin 4 → Fin S4x1x1x8192.rank)
  shapeCasts_S4x1x1x8192_S4x8192 : S4x1x1x8192.ShapeCasts S4x8192
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  reducesTo_S4x8192x1024_S4x8192_d2 : S4x8192x1024.ReducesTo [2] S4x8192
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.RowNorm.lean ====
import Idealize.ShloMosaic.PureOps.Ideal
import Idealize.ShloMosaic.Lib.ValueIdx

/-!
Layer normalisation of one row of 1024 extended reals, in the two spellings the programs use.

For a row `h`, with `μ = (Σ h) / 1024`, `d k = h k − μ` and `σ² = (Σ d²) / 1024`, one program computes
`d k · (σ² + ε)^(−1/2)` and the other `d k / √(σ² + ε)`, each then scaled and shifted. A sum of squares is never
negative on the extended reals (`⊥ · ⊥ = ⊤`), so `σ² + ε` is positive — a positive real or `⊤` — and on such a
value the reciprocal square root is the inverse of the square root (at `⊤` both factors are `0`). No finiteness of
the row is needed.
-/

noncomputable section

namespace Cert.RowNorm

open Idealize.ShloMosaic Idealize.ShloMosaic.ValueIdx
open scoped BigOperators

/-- The row width as the programs spell it, `1024.0`. -/
abbrev width : EReal := Ideal.ofBits .f32 0x44800000#32
/-- The programs' `ε`, the single-precision number nearest `1e-5`. -/
abbrev eps : EReal := Ideal.ofBits .f32 0x3727C5AC#32

theorem width_eq : width = ((1024 : ℝ) : EReal) := by
  simp [Ideal.ofBits, Ideal.ieee, -EReal.coe_mul]; norm_num

theorem eps_eq : eps = (((10995116 : ℝ) / 2 ^ 40 : ℝ) : EReal) := by
  simp [Ideal.ofBits, Ideal.ieee, -EReal.coe_mul]; norm_num

theorem eps_pos : 0 < eps := by
  rw [eps_eq]; exact EReal.coe_pos.mpr (by norm_num)

/-- The row's mean. -/
def mean (h : Fin 1024 → EReal) : EReal := Ideal.div (∑ k : Fin 1024, h k) width
/-- An entry's deviation from the mean. -/
def dev (h : Fin 1024 → EReal) (k : Fin 1024) : EReal := h k - mean h
/-- The row's variance: the mean of the squared deviations. -/
def var (h : Fin 1024 → EReal) : EReal := Ideal.div (∑ k : Fin 1024, dev h k * dev h k) width

/-- The entry normalised by the reciprocal square root, scaled by `g` and shifted by `b`. -/
def normMul (h : Fin 1024 → EReal) (g b : EReal) (k : Fin 1024) : EReal :=
  (dev h k * Ideal.rsqrt (var h + eps)) * g + b
/-- The entry divided by the square root, scaled by `g` and shifted by `b`. -/
def normDiv (h : Fin 1024 → EReal) (g b : EReal) (k : Fin 1024) : EReal :=
  Ideal.div (dev h k) (Ideal.sqrt (var h + eps)) * g + b

/-- A square is never negative, at the infinities too. -/
theorem sq_nonneg (c : EReal) : 0 ≤ c * c :=
  EReal.mul_nonneg_iff.mpr ((le_total 0 c).imp (fun h => ⟨h, h⟩) (fun h => ⟨h, h⟩))

theorem var_nonneg (h : Fin 1024 → EReal) : 0 ≤ var h := by
  unfold var
  rw [width_eq, Ideal.div_coe (by norm_num : (1024 : ℝ) ≠ 0)]
  exact EReal.mul_nonneg (Finset.sum_nonneg fun k _ => sq_nonneg _) (EReal.coe_nonneg.mpr (by norm_num))

theorem spread_pos (h : Fin 1024 → EReal) : 0 < var h + eps :=
  lt_of_lt_of_le eps_pos (le_add_of_nonneg_left (var_nonneg h))

/-- On a positive extended real the product with the reciprocal square root is the quotient by the square root. -/
theorem mul_rsqrt_eq_div_sqrt (c v : EReal) (hv : 0 < v) : c * Ideal.rsqrt v = Ideal.div c (Ideal.sqrt v) := by
  induction v using EReal.rec with
  | bot => exact absurd hv (not_lt_of_ge bot_le)
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le)]
    unfold Ideal.div
    rw [if_neg (by exact_mod_cast hs), EReal.coe_inv]
  | top =>
    rw [Ideal.rsqrt_top, Ideal.sqrt_top]
    unfold Ideal.div
    rw [if_neg EReal.top_ne_zero, EReal.inv_top]

/-- The two spellings of the normalised entry agree. -/
theorem normMul_eq_normDiv (h : Fin 1024 → EReal) (g b : EReal) (k : Fin 1024) : normMul h g b k = normDiv h g b k := by
  unfold normMul normDiv
  rw [mul_rsqrt_eq_div_sqrt _ _ (spread_pos h)]

/-! ## The whole array -/

/-- Row `(b, s)` of the input with row `s` of the table added to it. -/
def shifted (x : (⟨3, ![4, 8192, 1024]⟩ : Shape).Idx → EReal) (t : (⟨2, ![8192, 1024]⟩ : Shape).Idx → EReal)
    (b : Fin 4) (s : Fin 8192) : Fin 1024 → EReal := fun k => x (ix3 b s k) + t (ix2 s k)

/-- The result both programs compute: at `(b, s, k)` entry `k` of the normalised row `(b, s)` of `x + table`, scaled
    by `g k` and shifted by `be k`. -/
def result (x : (⟨3, ![4, 8192, 1024]⟩ : Shape).Idx → EReal) (t : (⟨2, ![8192, 1024]⟩ : Shape).Idx → EReal)
    (g be : (⟨1, ![1024]⟩ : Shape).Idx → EReal) : (⟨3, ![4, 8192, 1024]⟩ : Shape).Idx → EReal :=
  fun i => normMul (shifted x t (i 0) (i 1)) (g (ix1 (i 2))) (be (ix1 (i 2))) (i 2)

theorem result_apply (x : (⟨3, ![4, 8192, 1024]⟩ : Shape).Idx → EReal) (t : (⟨2, ![8192, 1024]⟩ : Shape).Idx → EReal)
    (g be : (⟨1, ![1024]⟩ : Shape).Idx → EReal) (b : Fin 4) (s : Fin 8192) (k : Fin 1024) :
    result x t g be (ix3 b s k) = normMul (shifted x t b s) (g (ix1 k)) (be (ix1 k)) k := rfl

end Cert.RowNorm

end
-- ==== Proof.KernelArray.lean ====
import proofs.«156135_g42271068127815_cont_8to1_b_858_9_alg».proof.Proof.Gen.KernelIdeal.Value
import proofs.«156135_g42271068127815_cont_8to1_b_858_9_alg».proof.Proof.RowNorm
import Idealize.ShloMosaic.Lib.Pipeline.Value
import Idealize.ShloMosaic.Lib.ValueIdx
import Idealize.ShloMosaic.PureOps.Ideal.Laws
import Idealize.ShloMosaic.Lib.StableHlo.Run

/-!
What the idealized kernel leaves in its result array.

The grid has sixteen points `(i, j)`; point `(i, j)` reads rows `2048 i … 2048 i + 2047` of batch entry `j` of the
input, the same rows of the table, and the whole scale and shift vectors, and writes the same rows of batch entry `j`
of the result. A block's entry `(0, r, k)` is entry `k` of the normalised row `r` of the two loaded blocks added
(`block_entry`: the two lane sums opened as sums over the 1024 columns). Read through the point's block that is the
entry of `RowNorm.result` at the array index under it (`flushed_eq`); the sixteen blocks tile the array
(`covered`), so the array ends holding `RowNorm.result` of the four arguments (`final`, `run`).
-/

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Cert.RowNorm
open Idealize.ShloMosaic.Pipeline (Dat)
open scoped BigOperators

/-! ## A block's entry -/

/-- A lane sum over the 1024 columns of a `[2048, 1024]` vector, at row `r`. -/
theorem laneSum (src : FVec Ideal S2048x1024 .f32) (r : Fin 2048) :
    multiReduction .add [1] S2048 src 0x00000000#32 reduces_S2048x1024_S2048 (.inl rfl) rfl (ix1 r)
      = ∑ k : Fin 1024, src (ix2 r k) :=
  (Ideal.multiReduction_add_single src _ reduces_S2048x1024_S2048 (.inl rfl) rfl (ix1 r)).trans
    (Finset.sum_congr rfl fun k _ => congrArg src (funext fun a => match a with
      | ⟨0, _⟩ => Fin.ext rfl
      | ⟨1, _⟩ => Fin.ext rfl))

/-- The two loaded blocks added: the input's block, its leading unit axis dropped, plus the table's. -/
abbrev blockSum (P0 : Vec Ideal S1x2048x1024 .f32) (P1 : Vec Ideal S2048x1024 .f32) : FVec Ideal S2048x1024 .f32 :=
  addf (shapeCast S2048x1024 P0 shapeCasts_S1x2048x1024_S2048x1024) P1

/-- Row `r` of that sum. -/
def hrow (P0 : Vec Ideal S1x2048x1024 .f32) (P1 : Vec Ideal S2048x1024 .f32) (r : Fin 2048) : Fin 1024 → EReal :=
  fun k => P0 (ix3 0 r k) + P1 (ix2 r k)

theorem blockSum_apply (P0 : Vec Ideal S1x2048x1024 .f32) (P1 : Vec Ideal S2048x1024 .f32) (r : Fin 2048) (k : Fin 1024) :
    blockSum P0 P1 (ix2 r k) = hrow P0 P1 r k := by
  show (shapeCast S2048x1024 P0 shapeCasts_S1x2048x1024_S2048x1024) (ix2 r k) + P1 (ix2 r k) = P0 (ix3 0 r k) + P1 (ix2 r k)
  refine congrArg (· + P1 (ix2 r k)) ?_
  exact shapeCast_apply P0 _ (ix2 r k) (ix3 0 r k) (by
    rw [Shape.rowMajor_val_three, Shape.rowMajor_val_two]
    show (0 * 2048 + r.val) * 1024 + k.val = r.val * 1024 + k.val
    omega)

/-- Every entry of the sum less its row's mean, as the body computes it: the lane sum, a column, divided by the
    width, spread back over the columns. -/
abbrev blockDev (P0 : Vec Ideal S1x2048x1024 .f32) (P1 : Vec Ideal S2048x1024 .f32) : FVec Ideal S2048x1024 .f32 :=
  subf (blockSum P0 P1) (broadcastTo S2048x1024 (divf (shapeCast S2048x1 (multiReduction .add [1] S2048 (blockSum P0 P1) 0x00000000#32 reduces_S2048x1024_S2048 (.inl rfl) rfl) shapeCasts_S2048_S2048x1) (broadcast S2048x1 (Scalar.ofBits .f32 0x44800000#32))) broadcasts_S2048x1_S2048x1024)

theorem blockDev_apply (P0 : Vec Ideal S1x2048x1024 .f32) (P1 : Vec Ideal S2048x1024 .f32) (r : Fin 2048) (k : Fin 1024) :
    blockDev P0 P1 (ix2 r k) = dev (hrow P0 P1 r) k := by
  show blockSum P0 P1 (ix2 r k) - (broadcastTo S2048x1024 (divf (shapeCast S2048x1 (multiReduction .add [1] S2048 (blockSum P0 P1) 0x00000000#32 reduces_S2048x1024_S2048 (.inl rfl) rfl) shapeCasts_S2048_S2048x1) (broadcast S2048x1 (Scalar.ofBits .f32 0x44800000#32))) broadcasts_S2048x1_S2048x1024) (ix2 r k)
    = hrow P0 P1 r k - mean (hrow P0 P1 r)
  rw [blockSum_apply]
  refine congrArg (hrow P0 P1 r k - ·) ?_
  refine (broadcastTo_apply _ _ (ix2 r k) (ix2 r 0) (fun a => match a with
    | ⟨0, _⟩ => by show r.val = (if (2048 : Nat) = 1 then 0 else r.val); rw [if_neg (by decide)]
    | ⟨1, _⟩ => by show 0 = (if (1 : Nat) = 1 then 0 else k.val); rw [if_pos rfl])).trans ?_
  show Ideal.div ((shapeCast S2048x1 (multiReduction .add [1] S2048 (blockSum P0 P1) 0x00000000#32 reduces_S2048x1024_S2048 (.inl rfl) rfl) shapeCasts_S2048_S2048x1) (ix2 r 0)) width
    = Ideal.div (∑ k : Fin 1024, hrow P0 P1 r k) width
  refine congrArg (Ideal.div · width) ?_
  refine (shapeCast_apply _ _ (ix2 r (0 : Fin 1)) (ix1 r) (by
    rw [Shape.rowMajor_val_one, Shape.rowMajor_val_two]
    show r.val = r.val * 1 + 0
    omega)).trans ?_
  exact (laneSum _ r).trans (Finset.sum_congr rfl fun k _ => blockSum_apply P0 P1 r k)

/-- ENTRY `(0, r, k)` OF THE BLOCK the body leaves: entry `k` of the normalised row `r` of the two blocks added,
    scaled and shifted by column `k` of the scale and shift blocks. -/
theorem block_entry (P0 : Vec Ideal S1x2048x1024 .f32) (P1 : Vec Ideal S2048x1024 .f32) (P2 P3 : Vec Ideal S1x1024 .f32)
    (r : Fin 2048) (k : Fin 1024) :
    E4 P0 P1 P2 P3 (ix3 0 r k) = normMul (hrow P0 P1 r) (P2 (ix2 0 k)) (P3 (ix2 0 k)) k := by
  show ((P0 (ix4_0 (ix3 0 r k)) + P1 (ix4_1 (ix3 0 r k))
          - Ideal.div (multiReduction .add [1] S2048 (blockSum P0 P1) 0x00000000#32 reduces_S2048x1024_S2048 (.inl rfl) rfl (ix4_2 (ix3 0 r k))) width)
        * Ideal.rsqrt (Ideal.div (multiReduction .add [1] S2048 (mulf (blockDev P0 P1) (blockDev P0 P1)) 0x00000000#32 reduces_S2048x1024_S2048 (.inl rfl) rfl (ix4_3 (ix3 0 r k))) width + eps))
      * P2 (ix4_4 (ix3 0 r k)) + P3 (ix4_5 (ix3 0 r k)) = _
  have e0 : ix4_0 (ix3 (0 : Fin 1) r k) = ix3 0 r k := funext fun a => match a with | ⟨0, _⟩ => rfl | ⟨1, _⟩ => rfl | ⟨2, _⟩ => rfl
  have e1 : ix4_1 (ix3 (0 : Fin 1) r k) = ix2 r k := funext fun a => match a with | ⟨0, _⟩ => rfl | ⟨1, _⟩ => rfl
  have e2 : ix4_2 (ix3 (0 : Fin 1) r k) = ix1 r := funext fun a => match a with | ⟨0, _⟩ => rfl
  have e3 : ix4_3 (ix3 (0 : Fin 1) r k) = ix1 r := funext fun a => match a with | ⟨0, _⟩ => rfl
  have e4 : ix4_4 (ix3 (0 : Fin 1) r k) = ix2 0 k := funext fun a => match a with | ⟨0, _⟩ => rfl | ⟨1, _⟩ => rfl
  have e5 : ix4_5 (ix3 (0 : Fin 1) r k) = ix2 0 k := funext fun a => match a with | ⟨0, _⟩ => rfl | ⟨1, _⟩ => rfl
  rw [e0, e1, e2, e3, e4, e5, laneSum, laneSum]
  have h1 : (∑ k' : Fin 1024, blockSum P0 P1 (ix2 r k')) = ∑ k' : Fin 1024, hrow P0 P1 r k' :=
    Finset.sum_congr rfl fun k' _ => blockSum_apply P0 P1 r k'
  have h2 : (∑ k' : Fin 1024, (mulf (blockDev P0 P1) (blockDev P0 P1)) (ix2 r k'))
      = ∑ k' : Fin 1024, dev (hrow P0 P1 r) k' * dev (hrow P0 P1 r) k' :=
    Finset.sum_congr rfl fun k' _ => by
      show blockDev P0 P1 (ix2 r k') * blockDev P0 P1 (ix2 r k') = _
      rw [blockDev_apply]
  rw [h1, h2]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The same for the frame's spelling of the block (its one store as a piece over the loads). -/
theorem out_entry (x0 : Vec Ideal S1x2048x1024 .f32) (x1 : Vec Ideal S2048x1024 .f32) (x2 x3 : Vec Ideal S1x1024 .f32)
    (r : Fin 2048) (k : Fin 1024) :
    out0_4 x0 x1 x2 x3 (ix3 0 r k) = normMul (hrow x0 x1 r) (x2 (ix2 0 k)) (x3 (ix2 0 k)) k := by
  unfold out0_4
  rw [View.ld_unit_zero (S := S1x2048x1024) hz3, View.ld_unit_zero (S := S2048x1024) hz2, View.ld_unit_zero (S := S1x1024) hz2,
    View.ld_unit_zero (S := S1x1024) hz2]
  exact (canon4_eq x0 x1 x2 x3 (ix3 0 r k)).trans (block_entry x0 x1 x2 x3 r k)

/-- Two blocks whose rows `r` are rows `(B, S)` of an input and `S` of a table add to the shifted row `(B, S)`. -/
theorem hrow_congr (x0 : Vec Ideal S1x2048x1024 .f32) (x1 : Vec Ideal S2048x1024 .f32)
    (X : S4x8192x1024.Idx → EReal) (T : S8192x1024.Idx → EReal) (r : Fin 2048) (B : Fin 4) (S' : Fin 8192)
    (h0 : ∀ k' : Fin 1024, x0 (ix3 0 r k') = X (ix3 B S' k')) (h1 : ∀ k' : Fin 1024, x1 (ix2 r k') = T (ix2 S' k')) :
    hrow x0 x1 r = shifted X T B S' :=
  funext fun k' => by unfold hrow shifted; rw [h0, h1]

theorem normMul_congr {h h' : Fin 1024 → EReal} {g g' b b' : EReal} (k : Fin 1024) (eh : h = h') (eg : g = g') (eb : b = b') :
    normMul h g b k = normMul h' g' b' k := by subst eh eg eb; rfl

/-! ## The blocks as rows of the arguments -/

variable (m : (ℓ : Loc nD τ sig) → Buf (Elt Ideal) ℓ) (ρ : Dev nD → PrngReg)

/-- The printed index maps, decided over the sixteen points: the input's block moves with the result's on both
    block axes, the table's first block index is the result's second, the scale and shift blocks stay at the origin,
    and the result's block indices run over `0 … 3` on each of its two long axes. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 3 :=
  (by decide +kernel : ∀ t : Fin grid0.N, _)

/-- Every pair of block indices is some point's. -/
theorem idx_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- The scale vector as the region finds it: the argument with a leading unit axis. -/
theorem V_scale (c : Dev nD) : (V m c main_v0 : S1x1024.Idx → EReal)
    = shapeCast S1x1024 (m ((c : Thread nD τ).loc main_arg2) : S1024.Idx → EReal) shapeCasts_S1024_S1x1024 := by
  dsimp only [V, hostOps0]; after_results; rfl

/-- The shift vector likewise. -/
theorem V_shift (c : Dev nD) : (V m c main_v1 : S1x1024.Idx → EReal)
    = shapeCast S1x1024 (m ((c : Thread nD τ).loc main_arg3) : S1024.Idx → EReal) shapeCasts_S1024_S1x1024 := by
  dsimp only [V, hostOps0]; after_results; rfl

/-- The input's block at point `t` reads the input at the block's offset plus the block index. -/
theorem xblk (c : Dev nD) (t : Fin cfg0.N) (y : S1x2048x1024.Idx) (i : S4x8192x1024.Idx)
    (h0 : (i 0).val = win0_0.index t (0 : Fin 3) * 1 + (y 0).val) (h1 : (i 1).val = win0_0.index t (1 : Fin 3) * 2048 + (y 1).val)
    (h2 : (i 2).val = win0_0.index t (2 : Fin 3) * 1024 + (y 2).val) :
    (iblk m c 0 t : Vec Ideal S1x2048x1024 .f32) y = (m ((c : Thread nD τ).loc main_arg0) : S4x8192x1024.Idx → EReal) i := by
  unfold iblk
  rw [View.read_apply]
  show V m c main_arg0 _ = _
  rw [V_main_arg0]
  congr 1
  funext a
  apply Fin.ext
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 1024 + 1 * (y 2).val = (i 2).val; omega

/-- The table's block at point `t` reads the table likewise. -/
theorem tblk (c : Dev nD) (t : Fin cfg0.N) (y : S2048x1024.Idx) (i : S8192x1024.Idx)
    (h0 : (i 0).val = win0_1.index t (0 : Fin 2) * 2048 + (y 0).val) (h1 : (i 1).val = win0_1.index t (1 : Fin 2) * 1024 + (y 1).val) :
    (iblk m c 1 t : Vec Ideal S2048x1024 .f32) y = (m ((c : Thread nD τ).loc main_arg1) : S8192x1024.Idx → EReal) i := by
  unfold iblk
  rw [View.read_apply]
  show V m c main_arg1 _ = _
  rw [V_main_arg1]
  congr 1
  funext a
  apply Fin.ext
  match a with
  | ⟨0, _⟩ => show win0_1.index t (0 : Fin 2) * 2048 + 1 * (y 0).val = (i 0).val; omega
  | ⟨1, _⟩ => show win0_1.index t (1 : Fin 2) * 1024 + 1 * (y 1).val = (i 1).val; omega

/-- The scale block at any point is the scale argument. -/
theorem gblk (c : Dev nD) (t : Fin cfg0.N) (k : Fin 1024) :
    (iblk m c 2 t : Vec Ideal S1x1024 .f32) (ix2 0 k) = (m ((c : Thread nD τ).loc main_arg2) : S1024.Idx → EReal) (ix1 k) := by
  obtain ⟨-, -, -, -, -, -, e6, e7, -, -, -, -⟩ := idx_facts t
  unfold iblk
  rw [View.read_apply]
  show V m c main_v0 _ = _
  rw [V_scale]
  refine shapeCast_apply _ _ _ (ix1 k) ?_
  rw [Shape.rowMajor_val_one, Shape.rowMajor_val_two]
  show k.val = (win0_2.index t (0 : Fin 2) * 1 + 1 * 0) * 1024 + (win0_2.index t (1 : Fin 2) * 1024 + 1 * k.val)
  rw [e6, e7]; omega

/-- The shift block at any point is the shift argument. -/
theorem bblk (c : Dev nD) (t : Fin cfg0.N) (k : Fin 1024) :
    (iblk m c 3 t : Vec Ideal S1x1024 .f32) (ix2 0 k) = (m ((c : Thread nD τ).loc main_arg3) : S1024.Idx → EReal) (ix1 k) := by
  obtain ⟨-, -, -, -, -, -, -, -, e8, e9, -, -⟩ := idx_facts t
  unfold iblk
  rw [View.read_apply]
  show V m c main_v1 _ = _
  rw [V_shift]
  refine shapeCast_apply _ _ _ (ix1 k) ?_
  rw [Shape.rowMajor_val_one, Shape.rowMajor_val_two]
  show k.val = (win0_3.index t (0 : Fin 2) * 1 + 1 * 0) * 1024 + (win0_3.index t (1 : Fin 2) * 1024 + 1 * k.val)
  rw [e8, e9]; omega

/-! ## From the blocks to the array -/

/-- WHAT POINT `t` WRITES BACK is block `t` of `RowNorm.result` of the four arguments. -/
theorem flushed_eq (c : Dev nD) (t : Fin cfg0.N) :
    (dats m 0 c).flushed 4 t = ((cfg0.win 4).blk t).view.read (Elt Ideal) (result (m ((c : Thread nD τ).loc main_arg0)) (m ((c : Thread nD τ).loc main_arg1)) (m ((c : Thread nD τ).loc main_arg2)) (m ((c : Thread nD τ).loc main_arg3))) := by
  rw [flushed4]
  refine funext fun (j : S1x2048x1024.Idx) => ?_
  obtain ⟨a, r, k, rfl⟩ : ∃ (a : Fin 1) (r : Fin 2048) (k : Fin 1024), j = ix3 a r k := ⟨j 0, j 1, j 2, eq_ix3 j⟩
  obtain rfl : a = 0 := Subsingleton.elim _ _
  obtain ⟨e0, e1, e2, e3, e4, e5, -, -, -, -, b0, b1⟩ := idx_facts t
  have hr : r.val < 2048 := r.isLt
  have hk : k.val < 1024 := k.isLt
  have hemb : ((cfg0.win 4).blk t).view.emb (ix3 (0 : Fin 1) r k)
      = ix3 (⟨win0_4.index t (0 : Fin 3), by omega⟩ : Fin 4) (⟨win0_4.index t (1 : Fin 3) * 2048 + r.val, by omega⟩ : Fin 8192) k :=
    funext fun a => Fin.ext (match a with
      | ⟨0, _⟩ => by show win0_4.index t (0 : Fin 3) * 1 + 1 * 0 = win0_4.index t (0 : Fin 3); omega
      | ⟨1, _⟩ => by show win0_4.index t (1 : Fin 3) * 2048 + 1 * r.val = win0_4.index t (1 : Fin 3) * 2048 + r.val; omega
      | ⟨2, _⟩ => by show win0_4.index t (2 : Fin 3) * 1024 + 1 * k.val = k.val; omega)
  show out0_4 (iblk m c 0 t) (iblk m c 1 t) (iblk m c 2 t) (iblk m c 3 t) (ix3 0 r k)
    = (result (m ((c : Thread nD τ).loc main_arg0)) (m ((c : Thread nD τ).loc main_arg1)) (m ((c : Thread nD τ).loc main_arg2)) (m ((c : Thread nD τ).loc main_arg3))) (((cfg0.win 4).blk t).view.emb (ix3 0 r k))
  rw [hemb, result_apply]
  refine (out_entry (iblk m c 0 t) (iblk m c 1 t) (iblk m c 2 t) (iblk m c 3 t) r k).trans ?_
  exact normMul_congr k
    (hrow_congr (iblk m c 0 t) (iblk m c 1 t) (m ((c : Thread nD τ).loc main_arg0)) (m ((c : Thread nD τ).loc main_arg1)) r _ _
      (fun k' => xblk m c t (ix3 0 r k') _
        (by show win0_4.index t (0 : Fin 3) = win0_0.index t (0 : Fin 3) * 1 + 0; omega)
        (by show win0_4.index t (1 : Fin 3) * 2048 + r.val = win0_0.index t (1 : Fin 3) * 2048 + r.val; omega)
        (by show k'.val = win0_0.index t (2 : Fin 3) * 1024 + k'.val; omega))
      (fun k' => tblk m c t (ix2 r k') _
        (by show win0_4.index t (1 : Fin 3) * 2048 + r.val = win0_1.index t (0 : Fin 2) * 2048 + r.val; omega)
        (by show k'.val = win0_1.index t (1 : Fin 2) * 1024 + k'.val; omega)))
    (gblk m c t k) (bblk m c t k)

/-- An index of the array is in point `t`'s block iff each coordinate is in the block's range on its axis. -/
theorem mem_blk (t : Fin cfg0.N) (i : S4x8192x1024.Idx) :
    i ∈ ((cfg0.win 4).blk t).view.set ↔ ∀ a : Fin 3, win0_4.index t a * S1x2048x1024.size a ≤ (i a).val ∧ (i a).val < win0_4.index t a * S1x2048x1024.size a + S1x2048x1024.size a := by
  show i ∈ ((View.whole main_v2).slice (win0_4.rect t)).set ↔ _
  rw [View.set_slice_whole, Rect.mem_set_unit]
  exact Iff.rfl

/-- The sixteen blocks tile the array: batch entry `b`, row `s` lies in the block of the point with block indices
    `(b, s / 2048)`. -/
theorem covered (i : S4x8192x1024.Idx) : ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  obtain ⟨t, ht⟩ := idx_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-- THE ARRAY after the run is `RowNorm.result` of the four arguments. -/
theorem final (c : Dev nD) : (dats m 0 c).arrAt 4 cfg0.N = result (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- The kernel's run, read: the result array at `RowNorm.result` of the arguments, the arguments unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Arr

end
-- ==== Proof.RefRun.lean ====
import proofs.«156135_g42271068127815_cont_8to1_b_858_9_alg».proof.Proof.Gen.ReferenceIdeal
import Idealize.ShloMosaic.Lib.StableHlo.Run

/-!
The reference program as a straight line, and what it leaves in its result buffer.

The program calls two outlined functions (a lookup of table rows by position, which itself calls a three-way
select). Laid out at their call sites over the call's own buffers, the whole program is one list of 58 host
operations. Every weakly fair execution of it terminates, the four arguments unchanged, with the result buffer at
`refOut`: the composition of those operations, stated here stage by stage —
the positions `0 … 8191` repeated for each of the four batch rows; the lookup's start indices (a negative
position would wrap by 8192; none is negative); its in-range mask; the gathered rows, kept where the mask holds and
a not-a-number pattern elsewhere; the sum with the input; the row means and variances; the quotient by the
square root; the scale and the shift.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the arrays -/

/-- The position of every entry of a `[4, 8192]` rectangle along its second axis, as a word. -/
def positions : IVec S4x8192 32 :=
  shapeCast S4x8192 (broadcastInDim S4x1x1x8192 ![0, 1, 2, 3] bcast_S1x1x1x8192_S4x1x1x8192_0_1_2_3
    (shapeCast S1x1x1x8192 (broadcastInDim S1x8192 ![1] bcast_S8192_S1x8192_1 (iotaInDim S8192 32 0)) shapeCasts_S1x8192_S1x1x1x8192))
    shapeCasts_S4x1x1x8192_S4x8192

/-- The lookup's index: a negative word wraps by the table's height. -/
def wrapped (p : IVec S4x8192 32) : IVec S4x8192 32 :=
  select (cmpi .slt p (broadcastInDim S4x8192 ![] bcast_S_S4x8192 (constantI S_ 32 0#32)))
    (addi p (broadcastInDim S4x8192 ![] bcast_S_S4x8192 (constantI S_ 32 8192#32))) p

/-- The start indices, with their trailing unit axis. -/
def starts (p : IVec S4x8192 32) : IVec S4x8192x1 32 :=
  broadcastInDim S4x8192x1 ![0, 1] bcast_S4x8192_S4x8192x1_0_1 (wrapped p)

/-- Where the start index lies inside the table, `0 ≤ i ≤ 8191`. -/
def inside (s : IVec S4x8192x1 32) : IVec S4x8192 1 :=
  Host.reduce IntOp.andi
    (andi (cmpi .sge s (broadcastInDim S4x8192x1 ![] bcast_S_S4x8192x1 (constantI S_ 32 0#32)))
      (cmpi .sle s (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The table's rows looked up at the start indices: the gathered row where the index is inside, a not-a-number
    pattern elsewhere. -/
def looked (tbl : FVec F S8192x1024 .f32) (s : IVec S4x8192x1 32) : FVec F S4x8192x1024 .f32 :=
  select (broadcastInDim S4x8192x1024 ![0, 1] bcast_S4x8192_S4x8192x1024_0_1 (inside s))
    (Host.gather gather_S8192x1024_S4x8192x1_S4x8192x1024_2_0_n_n_0_2_11024 tbl s)
    (broadcastInDim S4x8192x1024 ![] bcast_S_S4x8192x1024 (constant (F := F) S_ .f32 0x7FC00000#32))

/-- A row sum divided by the width, one entry per row (a trailing unit axis). -/
def rowAvg (v : FVec F S4x8192x1024 .f32) : FVec F S4x8192x1 .f32 :=
  Host.divf (broadcastInDim S4x8192x1 ![0, 1] bcast_S4x8192_S4x8192x1_0_1
      (Host.reduceAdd v (constant (F := F) S_ .f32 0x00000000#32) reducesTo_S4x8192x1024_S4x8192_d2 h_S_))
    (broadcastInDim S4x8192x1 ![] bcast_S_S4x8192x1 (constant (F := F) S_ .f32 0x44800000#32))

/-- Every entry less its row's mean. -/
def centred (v : FVec F S4x8192x1024 .f32) : FVec F S4x8192x1024 .f32 :=
  subf v (broadcastInDim S4x8192x1024 ![0, 1, 2] bcast_S4x8192x1_S4x8192x1024_0_1_2 (rowAvg v))

/-- The square root of each row's variance plus `ε`. -/
def rowSpread (v : FVec F S4x8192x1024 .f32) : FVec F S4x8192x1 .f32 :=
  Host.sqrt (addf (rowAvg (mulf (centred v) (centred v)))
    (broadcastInDim S4x8192x1 ![] bcast_S_S4x8192x1 (constant (F := F) S_ .f32 0x3727C5AC#32)))

/-- A `[1024]` vector repeated over every row. -/
def overRows (g : FVec F S1024 .f32) : FVec F S4x8192x1024 .f32 :=
  broadcastInDim S4x8192x1024 ![0, 1, 2] bcast_S1x1x1024_S4x8192x1024_0_1_2 (broadcastInDim S1x1x1024 ![2] bcast_S1024_S1x1x1024_2 g)

/-- The normalised, scaled and shifted rows of `v`. -/
def normalised (v : FVec F S4x8192x1024 .f32) (g b : FVec F S1024 .f32) : FVec F S4x8192x1024 .f32 :=
  addf (mulf (Host.divf (centred v) (broadcastInDim S4x8192x1024 ![0, 1, 2] bcast_S4x8192x1_S4x8192x1024_0_1_2 (rowSpread v)))
    (overRows g)) (overRows b)

/-- The reference's result as one function of its four arguments. -/
def refOut (x : FVec F S4x8192x1024 .f32) (tbl : FVec F S8192x1024 .f32) (g b : FVec F S1024 .f32) : FVec F S4x8192x1024 .f32 :=
  normalised (addf x (looked tbl (starts positions))) g b

/-! ## The program as a list of operations -/

/-- The 58 operations in program order: five that build the positions; the lookup's twenty-three, its select's one
    among them, over the call's buffers; thirty for the sum and the normalisation. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    reshape main_v1 main_v2 rfl shapeCasts_S1x8192_S1x1x1x8192,
    unary main_v2 main_v3 (broadcastInDim S4x1x1x8192 ![0, 1, 2, 3] bcast_S1x1x1x8192_S4x1x1x8192_0_1_2_3 : (⟨S1x1x1x8192, .i32⟩ : BufTy).Contents (Elt F) → (⟨S4x1x1x8192, .i32⟩ : BufTy).Contents (Elt F)),
    reshape main_v3 main_v4 rfl shapeCasts_S4x1x1x8192_S4x8192,
    TRef.nullary main_call0.c (constantI S_ 32 0#32),
    TRef.unary main_call0.c main_call0.v0 (broadcastInDim S4x8192 ![] bcast_S_S4x8192),
    TRef.binary (.of main_v4) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v4) main_call0.v2 main_call0.v3 addi,
    TRef.ternary main_call0.v1 main_call0.v3 (.of main_v4) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    binary main_arg0 main_v5 main_v6 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v6 main_cst main_v7 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v7 main_v8 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v9 (broadcastInDim S4x8192x1 ![] bcast_S_S4x8192x1 : (⟨S_, .f32⟩ : BufTy).Contents (Elt F) → (⟨S4x8192x1, .f32⟩ : BufTy).Contents (Elt F)),
    binary main_v8 main_v9 main_v10 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v11 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v11 main_v12 (subf : (⟨S4x8192x1024, .f32⟩ : BufTy).Contents (Elt F) → (⟨S4x8192x1024, .f32⟩ : BufTy).Contents (Elt F) → (⟨S4x8192x1024, .f32⟩ : BufTy).Contents (Elt F)),
    binary main_v12 main_v12 main_v13 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v13 main_cst_1 main_v14 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v14 main_v15 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v16 (broadcastInDim S4x8192x1 ![] bcast_S_S4x8192x1 : (⟨S_, .f32⟩ : BufTy).Contents (Elt F) → (⟨S4x8192x1, .f32⟩ : BufTy).Contents (Elt F)),
    binary main_v15 main_v16 main_v17 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v18 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v18 main_v19 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v20 (broadcastInDim S4x8192x1 ![] bcast_S_S4x8192x1 : (⟨S_, .f32⟩ : BufTy).Contents (Elt F) → (⟨S4x8192x1, .f32⟩ : BufTy).Contents (Elt F)),
    binary main_v17 main_v20 main_v21 (addf : (⟨S4x8192x1, .f32⟩ : BufTy).Contents (Elt F) → (⟨S4x8192x1, .f32⟩ : BufTy).Contents (Elt F) → (⟨S4x8192x1, .f32⟩ : BufTy).Contents (Elt F)),
    unary main_v21 main_v22 (Host.sqrt : (⟨S4x8192x1, .f32⟩ : BufTy).Contents (Elt F) → (⟨S4x8192x1, .f32⟩ : BufTy).Contents (Elt F)),
    unary main_v22 main_v23 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v19 main_v23 main_v24 (Host.divf : (⟨S4x8192x1024, .f32⟩ : BufTy).Contents (Elt F) → (⟨S4x8192x1024, .f32⟩ : BufTy).Contents (Elt F) → (⟨S4x8192x1024, .f32⟩ : BufTy).Contents (Elt F)),
    unary main_arg2 main_v25 (broadcastInDim S1x1x1024 ![2] bcast_S1024_S1x1x1024_2 : (⟨S1024, .f32⟩ : BufTy).Contents (Elt F) → (⟨S1x1x1024, .f32⟩ : BufTy).Contents (Elt F)),
    unary main_v25 main_v26 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v24 main_v26 main_v27 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v27 main_v29 main_v30 (addf : (⟨S4x8192x1024, .f32⟩ : BufTy).Contents (Elt F) → (⟨S4x8192x1024, .f32⟩ : BufTy).Contents (Elt F) → (⟨S4x8192x1024, .f32⟩ : BufTy).Contents (Elt F)) ]

set_option maxRecDepth 4096 in
/-- The program is that straight line: the two functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

set_option maxRecDepth 65536 in
set_option maxHeartbeats 2000000 in
/-- The fold of the operations at the result buffer is `refOut` of the arguments' contents: each operation's result
    read at its own buffer, every other buffer passed through. -/
theorem out_eq (V : Valuation τ sig (Elt F)) :
    after ops V (Proc.devRef .tc main_v30)
      = refOut (V (Proc.devRef .tc main_arg0)) (V (Proc.devRef .tc main_arg1)) (V (Proc.devRef .tc main_arg2)) (V (Proc.devRef .tc main_arg3)) := by
  after_results_simp
  rfl

set_option maxRecDepth 8192 in
theorem arg0_eq (V : Valuation τ sig (Elt F)) : after ops V (Proc.devRef .tc main_arg0) = V (Proc.devRef .tc main_arg0) := by
  after_results_simp
set_option maxRecDepth 8192 in
theorem arg1_eq (V : Valuation τ sig (Elt F)) : after ops V (Proc.devRef .tc main_arg1) = V (Proc.devRef .tc main_arg1) := by
  after_results_simp
set_option maxRecDepth 8192 in
theorem arg2_eq (V : Valuation τ sig (Elt F)) : after ops V (Proc.devRef .tc main_arg2) = V (Proc.devRef .tc main_arg2) := by
  after_results_simp
set_option maxRecDepth 8192 in
theorem arg3_eq (V : Valuation τ sig (Elt F)) : after ops V (Proc.devRef .tc main_arg3) = V (Proc.devRef .tc main_arg3) := by
  after_results_simp

/-- On every device, from any memory with zero counters: every weakly fair execution of the reference terminates
    with its result buffer at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v30).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.LibGatherRows3.lean ====
import Idealize.ShloMosaic.PureOps.Ideal
import Idealize.ShloMosaic.Lib.ValueIdx

/-!
A row gather through a rectangle of indices, read at an index.

`table[idx]` with `table : [N, C]` and `idx : [p, q]` gathers whole rows into `[p, q, C]`: the result at `(b, s, k)` is the
table's row named by the start index word at `(b, s)`, read signed and clamped into `[0, N − 1]`, at column `k`. The
indices arrive with a trailing axis of extent one that holds the single index component.
-/

noncomputable section

namespace Idealize.ShloMosaic.IndexOps3

open Idealize.ShloMosaic Idealize.ShloMosaic.ValueIdx

/-- An element of a one-element list, at any valid position, is that element. -/
private theorem getElem_single {β : Type} (l : List β) (a : β) (hl : l = [a]) (i : Nat) (h : i < l.length) :
    l[i] = a := by
  subst hl
  have h0 : i = 0 := by simpa using h
  subst h0
  rfl

/-- The two elements of a two-element list, by position. -/
private theorem getElem_pair {β : Type} (l : List β) (a0 a1 : β) (hl : l = [a0, a1]) (i : Nat) (h : i < l.length) :
    (i = 0 → l[i] = a0) ∧ (i = 1 → l[i] = a1) := by
  subst hl
  constructor <;> intro hi <;> subst hi <;> rfl

/-- A row gather through a rectangle of indices read at `(b, s, k)`: the operand's row at position `(b, s)`'s start
    index, read signed and clamped into `[0, N − 1]`, at column `k`. -/
theorem gather_rows3_apply {α : Type} {N C p q w : Nat} (d : GatherDims ⟨2, ![N, C]⟩ ⟨3, ![p, q, 1]⟩ ⟨3, ![p, q, C]⟩)
    (hoff : d.offsetDims = [2]) (hcoll : d.collapsedSliceDims = [0]) (hob : d.operandBatchingDims = [])
    (hsim : d.startIndexMap = [0]) (hivd : d.indexVectorDim = 2)
    (hss : d.sliceSizes = ![1, C]) (hN : 0 < N)
    (x : (⟨2, ![N, C]⟩ : Shape).Idx → α) (idx : IVec ⟨3, ![p, q, 1]⟩ w) (b : Fin p) (s : Fin q) (k : Fin C) :
    Host.gather d x idx (ix3 b s k) = x (ix2 ⟨min (idx (ix3 b s 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix3 b s k) idx 0 + d.batchCoord (ix3 b s k) 0 + d.offCoord (ix3 b s k) 0
      = min (idx (ix3 b s 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    -- the result's batch axes are 0 and 1, and they read the start indices' axes 0 and 1
    have hbd : d.batchDims = [0, 1] := by
      show (⟨3, ![p, q, C]⟩ : Shape).kept d.offsetDims = [0, 1]
      rw [hoff]; rfl
    have hsk : d.siKept = [0, 1] := by
      show (List.finRange 3).filter (fun x : Fin 3 => decide (x.val ≠ d.indexVectorDim)) = [0, 1]
      rw [hivd]; rfl
    have hsi : d.siIdx (ix3 b s k) ⟨d.startIndexMap.idxOf 0, List.idxOf_lt_length_iff.2 hm⟩ = ix3 b s 0 := by
      funext c
      match c with
      | ⟨0, _⟩ =>
        unfold GatherDims.siIdx
        rw [dif_neg (by rw [hivd]; simp)]
        unfold GatherDims.siCoord
        apply Fin.ext
        simp only [Fin.val_cast]
        have key : ∀ X : Fin 3, X = 0 → ((ix3 b s k : (⟨3, ![p, q, C]⟩ : Shape).Idx) X).val = b.val := by
          intro X hX; subst hX; rfl
        have hpos : d.siKept.idxOf (⟨0, by decide⟩ : Fin 3) = 0 := by rw [hsk]; rfl
        exact key _ ((getElem_pair _ _ _ hbd _ _).1 hpos)
      | ⟨1, _⟩ =>
        unfold GatherDims.siIdx
        rw [dif_neg (by rw [hivd]; simp)]
        unfold GatherDims.siCoord
        apply Fin.ext
        simp only [Fin.val_cast]
        have key : ∀ X : Fin 3, X = 1 → ((ix3 b s k : (⟨3, ![p, q, C]⟩ : Shape).Idx) X).val = s.val := by
          intro X hX; subst hX; rfl
        have hpos : d.siKept.idxOf (⟨1, by decide⟩ : Fin 3) = 1 := by rw [hsk]; rfl
        exact key _ ((getElem_pair _ _ _ hbd _ _).2 hpos)
      | ⟨2, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix3 b s k) idx 1 + d.batchCoord (ix3 b s k) 1 + d.offCoord (ix3 b s k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 3, X = 2 → ((ix3 b s k : (⟨3, ![p, q, C]⟩ : Shape).Idx) X).val = k.val := by
      intro X hX; subst hX; rfl
    exact key _ (getElem_single _ _ hoff _ _)

end Idealize.ShloMosaic.IndexOps3

end
-- ==== Proof.RefValue.lean ====
import proofs.«156135_g42271068127815_cont_8to1_b_858_9_alg».proof.Proof.RefRun
import proofs.«156135_g42271068127815_cont_8to1_b_858_9_alg».proof.Proof.RowNorm
import proofs.«156135_g42271068127815_cont_8to1_b_858_9_alg».proof.Proof.LibGatherRows3
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws
import Idealize.ShloMosaic.PureOps.Reduce

/-!
The reference's result, index by index.

The positions are `0 … 8191` along the second axis, so no lookup index is negative (nothing wraps), every one lies
inside the table (the mask is all ones, the not-a-number fill is never selected), and the gathered row at `(b, s)` is
row `s` of the table. The rest is the row normalisation read at `(b, s, k)`: each host sum as the initial `0` plus a
sum over the 1024 columns, each broadcast at the index it repeats. So the reference's result is `RowNorm.result`, in
the spelling that divides by the square root.
-/

noncomputable section

namespace Cert.ReferenceIdeal.RefValue

open Cert.ReferenceIdeal Cert.ReferenceIdeal.Gen Cert.ReferenceIdeal.RefRun Idealize.ShloMosaic Idealize.ShloMosaic.ValueIdx Cert.RowNorm
open scoped BigOperators

/-! ## The lookup: the gathered row at position `s` is the table's row `s` -/

theorem toNat_pos (s : Fin 8192) : (BitVec.ofNat 32 s.val).toNat = s.val := by
  rw [BitVec.toNat_ofNat]; exact Nat.mod_eq_of_lt (by have := s.isLt; omega)

/-- The position word at `(b, s)` is `s`. -/
theorem positions_apply (b : Fin 4) (s : Fin 8192) : positions (ix2 b s) = BitVec.ofNat 32 s.val := by
  unfold positions
  refine (shapeCast_apply _ _ (ix2 b s) (ix4 b (0 : Fin 1) (0 : Fin 1) s) (by
    rw [Shape.rowMajor_val_four, Shape.rowMajor_val_two]
    show ((b.val * 1 + 0) * 1 + 0) * 8192 + s.val = b.val * 8192 + s.val
    omega)).trans ?_
  refine (broadcastInDim_apply _ _ _ (ix4 b (0 : Fin 1) (0 : Fin 1) s) (ix4 (0 : Fin 1) (0 : Fin 1) (0 : Fin 1) s) (fun a => match a with
    | ⟨0, _⟩ => by show 0 = (if (1 : Nat) = 1 then 0 else b.val); rw [if_pos rfl]
    | ⟨1, _⟩ => by show 0 = (if (1 : Nat) = 1 then 0 else 0); rw [if_pos rfl]
    | ⟨2, _⟩ => by show 0 = (if (1 : Nat) = 1 then 0 else 0); rw [if_pos rfl]
    | ⟨3, _⟩ => by show s.val = (if (8192 : Nat) = 1 then 0 else s.val); rw [if_neg (by decide)])).trans ?_
  refine (shapeCast_apply _ _ (ix4 (0 : Fin 1) (0 : Fin 1) (0 : Fin 1) s) (ix2 (0 : Fin 1) s) (by
    rw [Shape.rowMajor_val_two, Shape.rowMajor_val_four]
    show 0 * 8192 + s.val = ((0 * 1 + 0) * 1 + 0) * 8192 + s.val
    omega)).trans ?_
  refine (broadcastInDim_apply _ _ _ (ix2 (0 : Fin 1) s) (ix1 s) (fun a => match a with
    | ⟨0, _⟩ => by show s.val = (if (8192 : Nat) = 1 then 0 else s.val); rw [if_neg (by decide)])).trans ?_
  rfl

/-- No position is negative, so the lookup index is the position itself. -/
theorem wrapped_apply (b : Fin 4) (s : Fin 8192) : wrapped positions (ix2 b s) = BitVec.ofNat 32 s.val := by
  have hs : s.val < 8192 := s.isLt
  unfold wrapped
  rw [select_apply]
  have hc : (cmpi .slt positions (broadcastInDim S4x8192 ![] bcast_S_S4x8192 (constantI S_ 32 0#32))) (ix2 b s) = 0#1 := by
    show IntOp.cmpi .slt (positions (ix2 b s)) ((broadcastInDim S4x8192 ![] bcast_S_S4x8192 (constantI S_ 32 0#32)) (ix2 b s)) = 0#1
    rw [positions_apply, broadcastInDim_scalar_apply, constantI_apply]
    refine eq_zero_of_ne_one fun h => ?_
    have h' := (StableHlo.Predicate.slt_iff_toNat (by rw [toNat_pos]; omega) (by decide)).mp h
    exact absurd h' (by simp)
  rw [hc, select_zero, positions_apply]

/-- The start index at `(b, s)`. -/
theorem starts_apply (b : Fin 4) (s : Fin 8192) : starts positions (ix3 b s (0 : Fin 1)) = BitVec.ofNat 32 s.val := by
  unfold starts
  refine (broadcastInDim_apply _ _ _ (ix3 b s (0 : Fin 1)) (ix2 b s) (fun a => match a with
    | ⟨0, _⟩ => by show b.val = (if (4 : Nat) = 1 then 0 else b.val); rw [if_neg (by decide)]
    | ⟨1, _⟩ => by show s.val = (if (8192 : Nat) = 1 then 0 else s.val); rw [if_neg (by decide)])).trans ?_
  exact wrapped_apply b s

/-- A reduction by `and` of an array of ones from one is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-- Every start index lies inside the table. -/
theorem inside_apply (b : Fin 4) (s : Fin 8192) : inside (starts positions) (ix2 b s) = 1#1 := by
  unfold inside
  refine reduce_andi_ones _ _ _ _ _ (fun i => ?_) rfl
  obtain ⟨b', s', z, rfl⟩ : ∃ (b' : Fin 4) (s' : Fin 8192) (z : Fin 1), i = ix3 b' s' z := ⟨i 0, i 1, i 2, eq_ix3 i⟩
  obtain rfl : z = 0 := Subsingleton.elim _ _
  have hs : s'.val < 8192 := s'.isLt
  show IntOp.andi (IntOp.cmpi .sge (starts positions (ix3 b' s' 0)) ((broadcastInDim S4x8192x1 ![] bcast_S_S4x8192x1 (constantI S_ 32 0#32)) (ix3 b' s' 0)))
      (IntOp.cmpi .sle (starts positions (ix3 b' s' 0)) ((broadcastInDim S4x8192x1 ![0, 1, 2] bcast_S1x1x1_S4x8192x1_0_1_2 (broadcastInDim S1x1x1 ![2] bcast_S1_S1x1x1_2 (constantI S1 32 8191#32))) (ix3 b' s' 0))) = 1#1
  have hM : (broadcastInDim S4x8192x1 ![0, 1, 2] bcast_S1x1x1_S4x8192x1_0_1_2 (broadcastInDim S1x1x1 ![2] bcast_S1_S1x1x1_2 (constantI S1 32 8191#32))) (ix3 b' s' (0 : Fin 1)) = 8191#32 := by
    refine (broadcastInDim_apply _ _ _ (ix3 b' s' (0 : Fin 1)) (ix3 (0 : Fin 1) (0 : Fin 1) (0 : Fin 1)) (fun a => match a with
      | ⟨0, _⟩ => by show 0 = (if (1 : Nat) = 1 then 0 else b'.val); rw [if_pos rfl]
      | ⟨1, _⟩ => by show 0 = (if (1 : Nat) = 1 then 0 else s'.val); rw [if_pos rfl]
      | ⟨2, _⟩ => by show 0 = (if (1 : Nat) = 1 then 0 else 0); rw [if_pos rfl])).trans ?_
    refine (broadcastInDim_apply _ _ _ (ix3 (0 : Fin 1) (0 : Fin 1) (0 : Fin 1)) (ix1 (0 : Fin 1)) (fun a => match a with
      | ⟨0, _⟩ => by show 0 = (if (1 : Nat) = 1 then 0 else 0); rw [if_pos rfl])).trans ?_
    rfl
  rw [starts_apply, hM, broadcastInDim_scalar_apply, constantI_apply]
  exact IntOp.andi_eq_one.mpr
    ⟨(StableHlo.Predicate.sge_iff_toNat (by rw [toNat_pos]; omega) (by decide)).mpr (Nat.zero_le _),
     (StableHlo.Predicate.sle_iff_toNat (by rw [toNat_pos]; omega) (by decide)).mpr (by rw [toNat_pos]; show s'.val ≤ 8191; omega)⟩

/-- The looked-up array at `(b, s, k)` is the table at `(s, k)`. -/
theorem looked_apply (tbl : FVec Ideal S8192x1024 .f32) (b : Fin 4) (s : Fin 8192) (k : Fin 1024) :
    looked tbl (starts positions) (ix3 b s k) = tbl (ix2 s k) := by
  have hs : s.val < 8192 := s.isLt
  unfold looked
  rw [select_apply]
  have hmask : (broadcastInDim S4x8192x1024 ![0, 1] bcast_S4x8192_S4x8192x1024_0_1 (inside (starts positions))) (ix3 b s k) = 1#1 :=
    (broadcastInDim_apply _ _ _ (ix3 b s k) (ix2 b s) (fun a => match a with
      | ⟨0, _⟩ => by show b.val = (if (4 : Nat) = 1 then 0 else b.val); rw [if_neg (by decide)]
      | ⟨1, _⟩ => by show s.val = (if (8192 : Nat) = 1 then 0 else s.val); rw [if_neg (by decide)])).trans (inside_apply b s)
  rw [hmask, select_one]
  refine (IndexOps3.gather_rows3_apply gather_S8192x1024_S4x8192x1_S4x8192x1024_2_0_n_n_0_2_11024 rfl rfl rfl rfl rfl rfl (by decide)
    tbl (starts positions) b s k).trans ?_
  refine congrArg tbl (funext fun a => ?_)
  match a with
  | ⟨0, _⟩ =>
    apply Fin.ext
    show min (starts positions (ix3 b s 0)).toInt.toNat (8192 - 1) = s.val
    rw [starts_apply, StableHlo.Predicate.toInt_ofNat_small s.val (by omega)]
    simp only [Int.toNat_natCast]
    omega
  | ⟨1, _⟩ => rfl

/-! ## The normalisation, read at `(b, s, k)` -/

/-- Row `(b, s)` of an array. -/
def vrow (v : FVec Ideal S4x8192x1024 .f32) (b : Fin 4) (s : Fin 8192) : Fin 1024 → EReal := fun k => v (ix3 b s k)

/-- A row's sum over the width is the row's mean. -/
theorem rowAvg_apply (v : FVec Ideal S4x8192x1024 .f32) (b : Fin 4) (s : Fin 8192) :
    rowAvg v (ix3 b s (0 : Fin 1)) = mean (vrow v b s) := by
  unfold rowAvg
  show Ideal.div ((broadcastInDim S4x8192x1 ![0, 1] bcast_S4x8192_S4x8192x1_0_1
        (Host.reduceAdd v (constant (F := Ideal) S_ .f32 0x00000000#32) reducesTo_S4x8192x1024_S4x8192_d2 h_S_)) (ix3 b s 0))
      ((broadcastInDim S4x8192x1 ![] bcast_S_S4x8192x1 (constant (F := Ideal) S_ .f32 0x44800000#32)) (ix3 b s 0)) = _
  rw [broadcastInDim_scalar_apply, constant_apply]
  refine congrArg (Ideal.div · width) ?_
  refine (broadcastInDim_apply _ _ _ (ix3 b s (0 : Fin 1)) (ix2 b s) (fun a => match a with
    | ⟨0, _⟩ => by show b.val = (if (4 : Nat) = 1 then 0 else b.val); rw [if_neg (by decide)]
    | ⟨1, _⟩ => by show s.val = (if (8192 : Nat) = 1 then 0 else s.val); rw [if_neg (by decide)])).trans ?_
  rw [hostReduceAdd_apply, Ideal.hostReduceAdd_single reducesTo_S4x8192x1024_S4x8192_d2 (by decide : S4x8192x1024.Reduces [2] S4x8192)]
  rw [constant_apply, Ideal.ofBits_zero_f32, zero_add]
  exact Finset.sum_congr rfl fun k _ => congrArg v (funext fun a => match a with
    | ⟨0, _⟩ => Fin.ext rfl
    | ⟨1, _⟩ => Fin.ext rfl
    | ⟨2, _⟩ => Fin.ext rfl)

/-- An entry less its row's mean. -/
theorem centred_apply (v : FVec Ideal S4x8192x1024 .f32) (b : Fin 4) (s : Fin 8192) (k : Fin 1024) :
    centred v (ix3 b s k) = dev (vrow v b s) k := by
  unfold centred
  show v (ix3 b s k) - (broadcastInDim S4x8192x1024 ![0, 1, 2] bcast_S4x8192x1_S4x8192x1024_0_1_2 (rowAvg v)) (ix3 b s k) = v (ix3 b s k) - mean (vrow v b s)
  refine congrArg (v (ix3 b s k) - ·) ?_
  exact (broadcastInDim_apply _ _ _ (ix3 b s k) (ix3 b s (0 : Fin 1)) (fun a => match a with
    | ⟨0, _⟩ => by show b.val = (if (4 : Nat) = 1 then 0 else b.val); rw [if_neg (by decide)]
    | ⟨1, _⟩ => by show s.val = (if (8192 : Nat) = 1 then 0 else s.val); rw [if_neg (by decide)]
    | ⟨2, _⟩ => by show 0 = (if (1 : Nat) = 1 then 0 else k.val); rw [if_pos rfl])).trans (rowAvg_apply v b s)

/-- The square root of a row's variance plus `ε`. -/
theorem rowSpread_apply (v : FVec Ideal S4x8192x1024 .f32) (b : Fin 4) (s : Fin 8192) :
    rowSpread v (ix3 b s (0 : Fin 1)) = Ideal.sqrt (var (vrow v b s) + eps) := by
  unfold rowSpread
  show Ideal.sqrt (rowAvg (mulf (centred v) (centred v)) (ix3 b s 0)
      + (broadcastInDim S4x8192x1 ![] bcast_S_S4x8192x1 (constant (F := Ideal) S_ .f32 0x3727C5AC#32)) (ix3 b s 0)) = _
  rw [broadcastInDim_scalar_apply, constant_apply, rowAvg_apply]
  have hsq : vrow (mulf (centred v) (centred v)) b s = fun k => dev (vrow v b s) k * dev (vrow v b s) k :=
    funext fun k => by
      show centred v (ix3 b s k) * centred v (ix3 b s k) = _
      rw [centred_apply]
  rw [hsq]
  rfl

/-- A `[1024]` vector repeated over the rows reads its entry `k`. -/
theorem overRows_apply (g : FVec Ideal S1024 .f32) (b : Fin 4) (s : Fin 8192) (k : Fin 1024) :
    overRows g (ix3 b s k) = g (ix1 k) := by
  unfold overRows
  refine (broadcastInDim_apply _ _ _ (ix3 b s k) (ix3 (0 : Fin 1) (0 : Fin 1) k) (fun a => match a with
    | ⟨0, _⟩ => by show 0 = (if (1 : Nat) = 1 then 0 else b.val); rw [if_pos rfl]
    | ⟨1, _⟩ => by show 0 = (if (1 : Nat) = 1 then 0 else s.val); rw [if_pos rfl]
    | ⟨2, _⟩ => by show k.val = (if (1024 : Nat) = 1 then 0 else k.val); rw [if_neg (by decide)])).trans ?_
  exact broadcastInDim_apply _ _ _ (ix3 (0 : Fin 1) (0 : Fin 1) k) (ix1 k) (fun a => match a with
    | ⟨0, _⟩ => by show k.val = (if (1024 : Nat) = 1 then 0 else k.val); rw [if_neg (by decide)])

/-- The normalised rows at `(b, s, k)`. -/
theorem normalised_apply (v : FVec Ideal S4x8192x1024 .f32) (g be : FVec Ideal S1024 .f32) (b : Fin 4) (s : Fin 8192) (k : Fin 1024) :
    normalised v g be (ix3 b s k) = normDiv (vrow v b s) (g (ix1 k)) (be (ix1 k)) k := by
  unfold normalised
  show Ideal.div (centred v (ix3 b s k)) ((broadcastInDim S4x8192x1024 ![0, 1, 2] bcast_S4x8192x1_S4x8192x1024_0_1_2 (rowSpread v)) (ix3 b s k))
      * overRows g (ix3 b s k) + overRows be (ix3 b s k) = _
  rw [centred_apply, overRows_apply, overRows_apply]
  have hsp : (broadcastInDim S4x8192x1024 ![0, 1, 2] bcast_S4x8192x1_S4x8192x1024_0_1_2 (rowSpread v)) (ix3 b s k)
      = Ideal.sqrt (var (vrow v b s) + eps) :=
    (broadcastInDim_apply _ _ _ (ix3 b s k) (ix3 b s (0 : Fin 1)) (fun a => match a with
      | ⟨0, _⟩ => by show b.val = (if (4 : Nat) = 1 then 0 else b.val); rw [if_neg (by decide)]
      | ⟨1, _⟩ => by show s.val = (if (8192 : Nat) = 1 then 0 else s.val); rw [if_neg (by decide)]
      | ⟨2, _⟩ => by show 0 = (if (1 : Nat) = 1 then 0 else k.val); rw [if_pos rfl])).trans (rowSpread_apply v b s)
  rw [hsp]
  rfl

/-- THE REFERENCE'S RESULT is `RowNorm.result` of its four arguments. -/
theorem refOut_eq (x : FVec Ideal S4x8192x1024 .f32) (tbl : FVec Ideal S8192x1024 .f32) (g be : FVec Ideal S1024 .f32) :
    refOut x tbl g be = result x tbl g be := by
  funext i
  obtain ⟨b, s, k, rfl⟩ : ∃ (b : Fin 4) (s : Fin 8192) (k : Fin 1024), i = ix3 b s k := ⟨i 0, i 1, i 2, eq_ix3 i⟩
  rw [result_apply, normMul_eq_normDiv]
  unfold refOut
  rw [normalised_apply]
  have hrow : vrow (addf x (looked tbl (starts positions))) b s = shifted x tbl b s :=
    funext fun k' => by
      show x (ix3 b s k') + looked tbl (starts positions) (ix3 b s k') = x (ix3 b s k') + tbl (ix2 s k')
      rw [looked_apply]
  rw [hrow]

end Cert.ReferenceIdeal.RefValue

end
-- ==== Proof.lean ====
/-
  Layer normalisation of `x + table[position]` over the last axis, a streaming kernel against its jnp reference, over the
  extended reals.

  Both programs compute, at `(b, s, k)`, entry `k` of the normalised row `h = x[b, s, :] + table[s, :]`:
  with `μ = (Σ h) / 1024`, `d = h − μ`, `σ² = (Σ d²) / 1024`, the kernel `(d · (σ² + ε)^(−1/2)) · γ + β` and the
  reference `(d / √(σ² + ε)) · γ + β`. The reference looks the table's rows up through the positions `0 … 8191`,
  which is the identity lookup (no index wraps, none falls outside, the out-of-range fill is never selected).
  The one law between the two is that on a positive extended real the reciprocal square root is the inverse of the
  square root; `σ² + ε` is positive because a sum of squares is never negative and `ε > 0`. It holds at the infinities
  as well, so the precondition is never opened.

  The kernel's frames are the generated ones; its result array is read off the generated blockwise value leg
  (Proof/KernelArray.lean); the reference's run and value are Proof/RefRun.lean and Proof/RefValue.lean; the row
  algebra is Proof/RowNorm.lean.
-/
import proofs.«156135_g42271068127815_cont_8to1_b_858_9_alg».proof.Defs
import proofs.«156135_g42271068127815_cont_8to1_b_858_9_alg».proof.Proof.Gen.Kernel
import proofs.«156135_g42271068127815_cont_8to1_b_858_9_alg».proof.Proof.Gen.Kernel.Skeleton
import proofs.«156135_g42271068127815_cont_8to1_b_858_9_alg».proof.Proof.Gen.Kernel.Launch
import proofs.«156135_g42271068127815_cont_8to1_b_858_9_alg».proof.Proof.Gen.Kernel.Points
import proofs.«156135_g42271068127815_cont_8to1_b_858_9_alg».proof.Proof.Gen.Kernel.Frame
import proofs.«156135_g42271068127815_cont_8to1_b_858_9_alg».proof.Proof.Gen.KernelIdeal
import proofs.«156135_g42271068127815_cont_8to1_b_858_9_alg».proof.Proof.Gen.KernelIdeal.Skeleton
import proofs.«156135_g42271068127815_cont_8to1_b_858_9_alg».proof.Proof.Gen.KernelIdeal.Launch
import proofs.«156135_g42271068127815_cont_8to1_b_858_9_alg».proof.Proof.Gen.KernelIdeal.Points
import proofs.«156135_g42271068127815_cont_8to1_b_858_9_alg».proof.Proof.Gen.KernelIdeal.Frame
import proofs.«156135_g42271068127815_cont_8to1_b_858_9_alg».proof.Proof.Gen.KernelIdeal.Value
import proofs.«156135_g42271068127815_cont_8to1_b_858_9_alg».proof.Proof.Gen.ReferenceIdeal
import proofs.«156135_g42271068127815_cont_8to1_b_858_9_alg».proof.Proof.Gen.Pre_finite_inputs
import proofs.«156135_g42271068127815_cont_8to1_b_858_9_alg».proof.Proof.RowNorm
import proofs.«156135_g42271068127815_cont_8to1_b_858_9_alg».proof.Proof.KernelArray
import proofs.«156135_g42271068127815_cont_8to1_b_858_9_alg».proof.Proof.RefRun
import proofs.«156135_g42271068127815_cont_8to1_b_858_9_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both runs end at `RowNorm.result` of arguments that agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.refOut_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
